-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_
  reducesTo_S1024x2048_S2048_d0 : S1024x2048.ReducesTo [0] S2048
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : FVec F S2048 .f32) (main_cst_5 : FVec F S_ .f32) : IVec S_ 1 :=
  let main_v16 : FVec F S2048 .f32 := broadcastInDim S2048 ![] bcast_S_S2048 main_cst_5
  let main_v17 : IVec S2048 1 := cmpf .ogt main_v15 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v13 main_v18
  main_v19

def fn {F : FTy → Type} [FloatOps F] (main_arg0 : FVec F S8192x1024 .f32) (main_arg1 : FVec F S1024x2048 .f32) (main_arg2 : FVec F S2048x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := mulf main_arg1 main_arg1
  let main_cst_4 : FVec F S_ .f32 := constant S_ .f32 0x00000000#32
  let main_v15 : FVec F S2048 .f32 := (fun x v => Host.reduceAdd x v reducesTo_S1024x2048_S2048_d0 h_S_) main_v14 main_cst_4
  let main_cst_5 : FVec F S_ .f32 := constant S_ .f32 0x00000000#32
  fn_part1 (F := F) main_v13 main_v15 main_cst_5
-- ==== Kernel.lean ====
abbrev S8192x1024 : Shape := ⟨2, ![8192, 1024]⟩
abbrev S1024x2048 : Shape := ⟨2, ![1024, 2048]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩
abbrev S1024x1024 : Shape := ⟨2, ![1024, 1024]⟩
abbrev S2048 : Shape := ⟨1, ![2048]⟩
abbrev S1x2048 : Shape := ⟨2, ![1, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S8192x1024, .f32⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  broadcasts_S1x2048_S1024x2048 : S1x2048.Broadcasts S1024x2048
  bitsLt_bf16_f32 : FTy.bits .bf16 < FTy.bits .f32
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  inb_S512x2048_S512x2048_0_0 : ∀ a, (![0, 0] : Fin 2 → Nat) a + S512x2048.size a ≤ S512x2048.size a
  h_S512x2048 : 0 < S512x2048.numel
  dot_S1024x2048_S2048x1024_S1024x1024_1_0_0_1_n_n_wf : DotDims.WF S1024x2048 S2048x1024 S1024x1024 [1] [0] [0] [1] [] []
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .f32 = 32 ∨ (Rect.block (s := S2048x1024) S2048x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .f32 = 32 ∨ (Rect.block (s := S8192x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S2048x1024 : Shape := ⟨2, ![2048, 1024]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1024x2048, .f32⟩
  | .hbm, ⟨9, _⟩ => ⟨S1024x2048, .f32⟩
  | .hbm, ⟨10, _⟩ => ⟨S8192x2048, .f32⟩
  | .hbm, ⟨11, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  reducesTo_S1024x2048_S2048_d0 : S1024x2048.ReducesTo [0] S2048
  h_S_ : 0 < S_.numel
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Pieces.lean ====
/-
  What one grid point leaves behind, as values of the blocks it was given.

  The kernel keeps two matrices in scratch across the grid: the column-normalised parameter matrix
  `An = A · rsqrt(column sums of squares of A)` and the product `W = An · Bm`. The first grid point computes
  both (the scratch is stored whole, then read back), every later point only reads them. At every point the
  tile `x` of 512 rows yields two products: `x · An` (the rows of the second result) and `x · W` (the rows
  of the first result).

  Each lemma below says that what a point leaves in one buffer is the body's arithmetic of that buffer's one
  covering store, applied to the blocks the point loaded: at the first point the scratch that the products
  read is the scratch the same point has just stored; at a later point it is what the point before left.
-/
import proofs.«143639_g85555748536941_cont_sun_m_818_30_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg1 : Memref sig .tc .vmem S512x1024 .f32) (harg1 : arg1.IsWhole)
  (arg2 : Memref sig .tc .vmem S1024x2048 .f32) (harg2 : arg2.IsWhole)
  (arg3 : Memref sig .tc .vmem S2048x1024 .f32) (harg3 : arg3.IsWhole)
  (arg4 : Memref sig .tc .vmem S512x1024 .f32) (harg4 : arg4.IsWhole)
  (arg5 : Memref sig .tc .vmem S512x2048 .f32) (harg5 : arg5.IsWhole)
  (arg6 : Memref sig .tc .vmem S1024x2048 .bf16) (harg6 : arg6.IsWhole)
  (arg7 : Memref sig .tc .vmem S1024x1024 .bf16) (harg7 : arg7.IsWhole)
  (x0 : Vec F S512x1024 .f32) (x1 : Vec F S1024x2048 .f32) (x2 : Vec F S2048x1024 .f32)

/-- The first point leaves in the first scratch the column-normalised matrix of the block of `A` it loaded. -/
theorem normed_first (hc0 : cond0_0 i) :
    sout0_A_0 c i arg1 harg1 arg2 harg2 arg3 harg3 arg4 harg4 arg5 harg5 arg6 harg6 arg7 harg7 hc0 x0 x1 x2 = k0_pay1 x1 := by
  unfold sout0_A_0
  rw [View.read_writes_eq_canon _ _ _ (scover0_A_0 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

/-- The first point leaves in the second scratch the product of that normalised matrix (read back from the first scratch) with the block of `Bm`. -/
theorem product_first (hc0 : cond0_0 i) :
    sout0_A_1 c i arg1 harg1 arg2 harg2 arg3 harg3 arg4 harg4 arg5 harg5 arg6 harg6 arg7 harg7 hc0 x0 x1 x2 = k0_pay2 (k0_pay1 x1) x2 := by
  unfold sout0_A_1
  rw [View.read_writes_eq_canon _ _ _ (scover0_A_1 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

/-- The first point's tile of the second result: the tile of `x` times the normalised matrix it has just stored. -/
theorem inner_first (hc0 : cond0_0 i) :
    out0_A_4 c i arg1 harg1 arg2 harg2 arg3 harg3 arg4 harg4 arg5 harg5 arg6 harg6 arg7 harg7 hc0 x0 x1 x2 = k0_pay4 x0 (k0_pay1 x1) := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

/-- The first point's tile of the first result: the tile of `x` times the product matrix it has just stored. -/
theorem outer_first (hc0 : cond0_0 i) :
    out0_A_3 c i arg1 harg1 arg2 harg2 arg3 harg3 arg4 harg4 arg5 harg5 arg6 harg6 arg7 harg7 hc0 x0 x1 x2 = k0_pay5 x0 (k0_pay2 (k0_pay1 x1) x2) := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

/-- A later point's tile of the second result: the tile of `x` times what the first scratch held on entry. -/
theorem inner_later (hc0 : ¬cond0_0 i) (xs0 : Vec F S1024x2048 .bf16) (xs1 : Vec F S1024x1024 .bf16) :
    out0_B_4 c i arg1 harg1 arg2 harg2 arg3 harg3 arg4 harg4 arg5 harg5 arg6 harg6 arg7 harg7 hc0 x0 x1 x2 xs0 xs1 = k0_pay4 x0 xs0 := by
  unfold out0_B_4
  rw [View.read_writes_eq_canon _ _ _ (cover0_B_4 c i arg1 harg1 arg2 harg2 arg3 harg3 arg4 harg4 arg5 harg5 arg6 harg6 arg7 harg7 hc0 x0 x1 x2 xs0 xs1)]
  unfold kernelRun0_B
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

/-- A later point's tile of the first result: the tile of `x` times what the second scratch held on entry. -/
theorem outer_later (hc0 : ¬cond0_0 i) (xs0 : Vec F S1024x2048 .bf16) (xs1 : Vec F S1024x1024 .bf16) :
    out0_B_3 c i arg1 harg1 arg2 harg2 arg3 harg3 arg4 harg4 arg5 harg5 arg6 harg6 arg7 harg7 hc0 x0 x1 x2 xs0 xs1 = k0_pay5 x0 xs1 := by
  unfold out0_B_3
  rw [View.read_writes_eq_canon _ _ _ (cover0_B_3 c i arg1 harg1 arg2 harg2 arg3 harg3 arg4 harg4 arg5 harg5 arg6 harg6 arg7 harg7 hc0 x0 x1 x2 xs0 xs1)]
  unfold kernelRun0_B
  dsimp only
  sl_unfold_words
  rw [View.canon_unit_zero hz]
  simp only [View.readAt_eq_ld, harg1.read_unread, harg2.read_unread, harg3.read_unread, harg6.read_unread, harg7.read_unread,
    View.ld_unit_zero (S := S512x1024) hz, View.ld_unit_zero (S := S1024x2048) hz, View.ld_unit_zero (S := S2048x1024) hz,
    View.ld_unit_zero (S := S1024x1024) hz, View.ld_unit_zero (S := S512x2048) hz,
    View.readCov_unit_zero (S := S1024x2048) _ hz, View.readCov_unit_zero (S := S1024x1024) _ hz]

end Cert.KernelIdeal.Pieces
end
-- ==== Proof.Points.lean ====
/-
  What the staging buffers and the two scratch matrices hold after every grid point.

  Write `An` for the column-normalised parameter matrix and `W = An · Bm` (the body's arithmetic applied to the
  whole arrays `A` and `Bm`: their windows never move, so the block a point loads IS the array). The claim,
  by induction on the grid point: after point `t` the two scratch matrices hold `An` and `W`, and the two
  output tiles hold `x_t · W` and `x_t · An` for the point's own tile `x_t` of 512 rows of `x`. The first point
  computes the matrices and uses them at once; each later point finds them as the point before left them and
  stores nothing into them.
-/
import proofs.«143639_g85555748536941_cont_sun_m_818_30_alg».proof.Proof.Pieces
import proofs.«143639_g85555748536941_cont_sun_m_818_30_alg».proof.Proof.Gen.KernelIdeal.Value

set_option maxRecDepth 16384

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.KernelIdeal.Pieces

variable {F : FTy → Type} [FloatOps F]
variable (m : (ℓ : Loc nD τ sig) → Buf (Elt F) ℓ)

/-- The three argument arrays as the region finds them, at their literal types. -/
abbrev arrX (c : Dev nD) : Vec F S8192x1024 .f32 := V m c main_arg0
abbrev arrA (c : Dev nD) : Vec F S1024x2048 .f32 := V m c main_arg1
abbrev arrB (c : Dev nD) : Vec F S2048x1024 .f32 := V m c main_arg2

/-- The tile of `x` that point `t` loads. -/
abbrev tileX (c : Dev nD) (t : Fin cfg0.N) : Vec F S512x1024 .f32 := iblk m c 0 t

/-- The windows of `A` and `Bm` sit at block (0, 0) at every point (decided over the grid). -/
theorem still : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- So the block of `A` a point loads is all of `A`, -/
theorem blockA_eq (c : Dev nD) (t : Fin cfg0.N) : (iblk m c 1 t : Vec F S1024x2048 .f32) = arrA m c := by
  obtain ⟨e0, e1, -, -⟩ := still t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- and the block of `Bm` is all of `Bm`. -/
theorem blockB_eq (c : Dev nD) (t : Fin cfg0.N) : (iblk m c 2 t : Vec F S2048x1024 .f32) = arrB m c := by
  obtain ⟨-, -, e0, e1⟩ := still t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 2048 + 1 * (y 0).val = (y 0).val; omega
  | ⟨1, _⟩ => show win0_2.index t (1 : Fin 2) * 1024 + 1 * (y 1).val = (y 1).val; omega

/-- The column-normalised matrix and its product with `Bm`, of the whole arrays. -/
abbrev normed (c : Dev nD) : Vec F S1024x2048 .bf16 := k0_pay1 (arrA m c)
abbrev product (c : Dev nD) : Vec F S1024x1024 .bf16 := k0_pay2 (normed m c) (arrB m c)

/-- What point `t` leaves: the tile of the first result, the tile of the second, and the two matrices. -/
def leaves (c : Dev nD) (t : Fin cfg0.N) :
    Vec F S512x1024 .f32 × Vec F S512x2048 .f32 × Vec F S1024x2048 .bf16 × Vec F S1024x1024 .bf16 :=
  (k0_pay5 (tileX m c t) (product m c), k0_pay4 (tileX m c t) (normed m c), normed m c, product m c)

/-- After every point the buffers hold exactly that: by induction on the point. -/
theorem outsAt_eq (c : Dev nD) : ∀ (n : ℕ) (h : n < cfg0.N), outsAt0 m c n h = leaves m c ⟨n, h⟩
  | 0, h => by
    rw [outsAt0_A m c ⟨0, h⟩ rfl, outer_first, inner_first, normed_first, product_first, blockA_eq, blockB_eq]
    rfl
  | n + 1, h => by
    have hN : cfg0.N = 16 := N_0
    have hB : ¬(⟨n + 1, h⟩ : Fin cfg0.N).val % 16 = 0 := by dsimp only; omega
    rw [outsAt0_B m c ⟨n + 1, h⟩ hB, outer_later, inner_later]
    unfold sout0_B_0 sout0_B_1
    show (k0_pay5 _ (outsAt0 m c n _).2.2.2, k0_pay4 _ (outsAt0 m c n _).2.2.1, (outsAt0 m c n _).2.2.1, (outsAt0 m c n _).2.2.2) = _
    rw [outsAt_eq c n]
    rfl

end Cert.KernelIdeal.Points
end
-- ==== Proof.Spec.lean ====
/-
  The mathematics that joins the two programs, over the extended reals, with no program in sight.

  Both programs normalise every column `k` of the parameter matrix `A` by its Euclidean norm and then form
  `x · N` and `x · N · Bm` for the normalised matrix `N`. They differ in two places.

  * The normalisation: one multiplies by the reciprocal square root of the column's sum of squares, the other
    divides by its square root. For a column whose sum of squares `s` is a POSITIVE REAL both are the product
    with `1 / √s`. (At `s = 0` they are not the same extended real, which is why the column sums are assumed
    positive: it is where the quotient by the norm has a meaning at all.)
  * The order of the two matrix products: `(x · N) · Bm` against `x · (N · Bm)`. For matrices of REAL entries the
    double sum may be taken in either order and a factor may be moved across a finite sum; with an infinite
    entry this fails, which is why the entries are assumed finite.
-/
import Idealize.ShloMosaic.PureOps.Ideal
import Idealize.ShloMosaic.Lib.ValueIdx

noncomputable section

open scoped BigOperators

namespace Cert.Spec

open Idealize.ShloMosaic Idealize.ShloMosaic.ValueIdx

abbrev ShX : Shape := ⟨2, ![8192, 1024]⟩
abbrev ShA : Shape := ⟨2, ![1024, 2048]⟩
abbrev ShB : Shape := ⟨2, ![2048, 1024]⟩

/-- The sum of squares of column `k` of `A`. -/
def colSq (A : ShA.Idx → EReal) (k : Fin 2048) : EReal := ∑ f : Fin 1024, A (ix2 f k) * A (ix2 f k)

/-- `A` with every column multiplied by the reciprocal square root of its sum of squares, -/
def scaled (A : ShA.Idx → EReal) (f : Fin 1024) (k : Fin 2048) : EReal := A (ix2 f k) * Ideal.rsqrt (colSq A k)

/-- and with every column divided by the square root of its sum of squares. -/
def divided (A : ShA.Idx → EReal) (f : Fin 1024) (k : Fin 2048) : EReal := Ideal.div (A (ix2 f k)) (Ideal.sqrt (colSq A k))

/-- Row `b` of `x` against column `k` of a matrix `N`. -/
def inner (x : ShX.Idx → EReal) (N : Fin 1024 → Fin 2048 → EReal) (b : Fin 8192) (k : Fin 2048) : EReal :=
  ∑ f : Fin 1024, x (ix2 b f) * N f k

/-- Row `f` of `N` against column `g` of `B`. -/
def mixed (N : Fin 1024 → Fin 2048 → EReal) (B : ShB.Idx → EReal) (f : Fin 1024) (g : Fin 1024) : EReal :=
  ∑ k : Fin 2048, N f k * B (ix2 k g)

/-- `x · (N · B)` at `(b, g)`. -/
def fused (x : ShX.Idx → EReal) (N : Fin 1024 → Fin 2048 → EReal) (B : ShB.Idx → EReal) (b : Fin 8192) (g : Fin 1024) : EReal :=
  ∑ f : Fin 1024, x (ix2 b f) * mixed N B f g

/-- `(x · N) · B` at `(b, g)`. -/
def chained (x : ShX.Idx → EReal) (N : Fin 1024 → Fin 2048 → EReal) (B : ShB.Idx → EReal) (b : Fin 8192) (g : Fin 1024) : EReal :=
  ∑ k : Fin 2048, inner x N b k * B (ix2 k g)

/-- The inclusion of the reals in the extended reals carries a finite sum to the sum. -/
theorem coe_sum_finset {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem coe_sum {ι : Type*} [Fintype ι] (f : ι → ℝ) : ((∑ i, f i : ℝ) : EReal) = ∑ i, (f i : EReal) :=
  coe_sum_finset Finset.univ f

/-- For a positive real `s`, the product with `s^(-1/2)` is the quotient by `√s`, whatever the other factor. -/
theorem mul_rsqrt_eq_div_sqrt (a : EReal) {s : ℝ} (hs : 0 < s) :
    a * Ideal.rsqrt (s : EReal) = Ideal.div a (Ideal.sqrt (s : EReal)) := by
  have h1 : ¬ s < 0 := not_lt.mpr hs.le
  have h2 : s ≠ 0 := hs.ne'
  have h3 : Real.sqrt s ≠ 0 := (Real.sqrt_pos.mpr hs).ne'
  rw [Ideal.rsqrt_coe, Ideal.sqrt_coe, if_neg h1, if_neg h2, if_neg h1, Ideal.div_coe h3, one_div]

/-- The sum of squares of a column of real entries is a real, the sum of the squares. -/
theorem colSq_coe (Ar : ShA.Idx → ℝ) (k : Fin 2048) :
    colSq (fun j => (Ar j : EReal)) k = ((∑ f : Fin 1024, Ar (ix2 f k) * Ar (ix2 f k) : ℝ) : EReal) := by
  unfold colSq
  simp only [← EReal.coe_mul, ← coe_sum]

/-- So on a matrix of real entries whose columns have positive sums of squares the two normalisations agree. -/
theorem divided_eq_scaled (A : ShA.Idx → EReal) (hA : ∀ j, ∃ r : ℝ, A j = (r : EReal)) (hpos : ∀ k, 0 < colSq A k) :
    divided A = scaled A := by
  choose Ar hAr using hA
  obtain rfl : A = fun j => (Ar j : EReal) := funext hAr
  funext f k
  have hk := hpos k
  unfold divided scaled
  rw [colSq_coe] at hk ⊢
  exact (mul_rsqrt_eq_div_sqrt _ (EReal.coe_pos.mp hk)).symm

/-- and the normalised matrix has real entries. -/
theorem scaled_real (A : ShA.Idx → EReal) (hA : ∀ j, ∃ r : ℝ, A j = (r : EReal)) (hpos : ∀ k, 0 < colSq A k) :
    ∀ f k, ∃ r : ℝ, scaled A f k = (r : EReal) := by
  choose Ar hAr using hA
  obtain rfl : A = fun j => (Ar j : EReal) := funext hAr
  intro f k
  have hk := hpos k
  unfold scaled
  rw [colSq_coe] at hk ⊢
  have hs : (0 : ℝ) < ∑ f : Fin 1024, Ar (ix2 f k) * Ar (ix2 f k) := EReal.coe_pos.mp hk
  rw [Ideal.rsqrt_coe, if_neg (not_lt.mpr hs.le), if_neg hs.ne', ← EReal.coe_mul]
  exact ⟨_, rfl⟩

/-- For real entries the two orders of the double product agree. -/
theorem chained_eq_fused (x : ShX.Idx → EReal) (N : Fin 1024 → Fin 2048 → EReal) (B : ShB.Idx → EReal)
    (hx : ∀ i, ∃ r : ℝ, x i = (r : EReal)) (hN : ∀ f k, ∃ r : ℝ, N f k = (r : EReal)) (hB : ∀ j, ∃ r : ℝ, B j = (r : EReal))
    (b : Fin 8192) (g : Fin 1024) : chained x N B b g = fused x N B b g := by
  choose xr hxr using hx
  choose Nr hNr using hN
  choose Br hBr using hB
  obtain rfl : x = fun i => (xr i : EReal) := funext hxr
  obtain rfl : N = fun f k => (Nr f k : EReal) := funext fun f => funext fun k => hNr f k
  obtain rfl : B = fun j => (Br j : EReal) := funext hBr
  unfold chained fused inner mixed
  simp only [← EReal.coe_mul, ← coe_sum]
  refine congrArg _ ?_
  simp only [Finset.sum_mul, Finset.mul_sum]
  rw [Finset.sum_comm]
  exact Finset.sum_congr rfl fun f _ => Finset.sum_congr rfl fun k _ => mul_assoc _ _ _

end Cert.Spec
end
-- ==== Proof.Payload.lean ====
/-
  The body's arithmetic read at one index, over the extended reals.

  * The normalised matrix at `(f, k)` is `A(f, k)` times the reciprocal square root of column `k`'s sum of squares:
    the lane sum over the rows is a finite sum, the result is laid out as one row and repeated down the rows, and the
    change of float format is the identity.
  * Each of the three matrix products, into a zero accumulator, is at `(p, q)` the sum over the contracted coordinate
    of the products of row `p` and column `q`.
  So a tile of the second result is row by row `x · N`, and a tile of the first result is `x · (N · Bm)`.
-/
import proofs.«143639_g85555748536941_cont_sun_m_818_30_alg».proof.Proof.Gen.KernelIdeal.Skeleton
import proofs.«143639_g85555748536941_cont_sun_m_818_30_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ### The product of the normalised matrix with `Bm` -/

theorem mixedDot_lhs0 (i : S1024x1024.Idx) (q : dot_S1024x2048_S2048x1024_S1024x1024_1_0_0_1_n_n.contr.Idx) : (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem mixedDot_lhs1 (i : S1024x1024.Idx) (q : dot_S1024x2048_S2048x1024_S1024x1024_1_0_0_1_n_n.contr.Idx) : (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem mixedDot_rhs0 (i : S1024x1024.Idx) (q : dot_S1024x2048_S2048x1024_S1024x1024_1_0_0_1_n_n.contr.Idx) : (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem mixedDot_rhs1 (i : S1024x1024.Idx) (q : dot_S1024x2048_S2048x1024_S1024x1024_1_0_0_1_n_n.contr.Idx) : (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product into a zero accumulator, at row `p` and column `q`: the sum over the contracted coordinate. -/
theorem mixedDot_apply {φ₁ φ₂ : FTy} (l : FVec Ideal S1024x2048 φ₁) (r : FVec Ideal S2048x1024 φ₂) (p : Fin 1024) (q : Fin 1024) :
    matmul dot_S1024x2048_S2048x1024_S1024x1024_1_0_0_1_n_n none l r (constant S1024x1024 .f32 0x00000000#32) (ix2 p q) = ∑ k : Fin 2048, l (ix2 p k) * r (ix2 k q) := by
  refine (Ideal.matmul_constant_zero_apply dot_S1024x2048_S2048x1024_S1024x1024_1_0_0_1_n_n none l r (ix2 p q)).trans ?_
  rw [← Equiv.sum_comp (ValueIdx.contrEquiv1 dot_S1024x2048_S2048x1024_S1024x1024_1_0_0_1_n_n 2048 rfl rfl).symm]
  refine Finset.sum_congr rfl fun k _ => ?_
  have hk := ValueIdx.contrEquiv1_symm_val dot_S1024x2048_S2048x1024_S1024x1024_1_0_0_1_n_n 2048 rfl rfl k
  have el : dot_S1024x2048_S2048x1024_S1024x1024_1_0_0_1_n_n.lhsIdx (ix2 p q) ((ValueIdx.contrEquiv1 dot_S1024x2048_S2048x1024_S1024x1024_1_0_0_1_n_n 2048 rfl rfl).symm k) = ix2 p k := funext fun a => Fin.ext (by
    match a with
    | ⟨0, _⟩ => exact mixedDot_lhs0 _ _
    | ⟨1, _⟩ => exact (mixedDot_lhs1 _ _).trans hk)
  have er : dot_S1024x2048_S2048x1024_S1024x1024_1_0_0_1_n_n.rhsIdx (ix2 p q) ((ValueIdx.contrEquiv1 dot_S1024x2048_S2048x1024_S1024x1024_1_0_0_1_n_n 2048 rfl rfl).symm k) = ix2 k q := funext fun a => Fin.ext (by
    match a with
    | ⟨0, _⟩ => exact (mixedDot_rhs0 _ _).trans hk
    | ⟨1, _⟩ => exact mixedDot_rhs1 _ _)
  rw [el, er]

/-! ### A tile of `x` times the normalised matrix -/

theorem innerDot_lhs0 (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem innerDot_lhs1 (i : S512x2048.Idx) (q : dot_S512x1024_S1024x2048_S512x2048_1_0_0_1_n_n.contr.Idx) : (dot_S512x1024_S1024x2048_S512x2048_1_0_0_1_n_n.lhsIdx i q 1).val = (q ⟨0, by decide⟩).val :=
  dot_S512x1024_S1024x2048_S512x2048_1_0_0_1_n_n.lhsIdx_val_of_single rfl i q
theorem innerDot_rhs0 (i : S512x2048.Idx) (q : dot_S512x1024_S1024x2048_S512x2048_1_0_0_1_n_n.contr.Idx) : (dot_S512x1024_S1024x2048_S512x2048_1_0_0_1_n_n.rhsIdx i q 0).val = (q ⟨0, by decide⟩).val :=
  dot_S512x1024_S1024x2048_S512x2048_1_0_0_1_n_n.rhsIdx_val_of_single rfl i q
theorem innerDot_rhs1 (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The product into a zero accumulator, at row `p` and column `q`: the sum over the contracted coordinate. -/
theorem innerDot_apply {φ₁ φ₂ : FTy} (l : FVec Ideal S512x1024 φ₁) (r : FVec Ideal S1024x2048 φ₂) (p : Fin 512) (q : Fin 2048) :
    matmul dot_S512x1024_S1024x2048_S512x2048_1_0_0_1_n_n none l r (constant S512x2048 .f32 0x00000000#32) (ix2 p q) = ∑ k : Fin 1024, l (ix2 p k) * r (ix2 k q) := by
  refine (Ideal.matmul_constant_zero_apply dot_S512x1024_S1024x2048_S512x2048_1_0_0_1_n_n none l r (ix2 p q)).trans ?_
  rw [← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 p q) ((ValueIdx.contrEquiv1 dot_S512x1024_S1024x2048_S512x2048_1_0_0_1_n_n 1024 rfl rfl).symm k) = ix2 p k := funext fun a => Fin.ext (by
    match a with
    | ⟨0, _⟩ => exact innerDot_lhs0 _ _
    | ⟨1, _⟩ => exact (innerDot_lhs1 _ _).trans hk)
  have er : dot_S512x1024_S1024x2048_S512x2048_1_0_0_1_n_n.rhsIdx (ix2 p q) ((ValueIdx.contrEquiv1 dot_S512x1024_S1024x2048_S512x2048_1_0_0_1_n_n 1024 rfl rfl).symm k) = ix2 k q := funext fun a => Fin.ext (by
    match a with
    | ⟨0, _⟩ => exact (innerDot_rhs0 _ _).trans hk
    | ⟨1, _⟩ => exact innerDot_rhs1 _ _)
  rw [el, er]

/-! ### A tile of `x` times the product matrix -/

theorem outerDot_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem outerDot_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem outerDot_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem outerDot_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, at row `p` and column `q`: the sum over the contracted coordinate. -/
theorem outerDot_apply {φ₁ φ₂ : FTy} (l : FVec Ideal S512x1024 φ₁) (r : FVec Ideal S1024x1024 φ₂) (p : Fin 512) (q : Fin 1024) :
    matmul dot_S512x1024_S1024x1024_S512x1024_1_0_0_1_n_n none l r (constant S512x1024 .f32 0x00000000#32) (ix2 p q) = ∑ k : Fin 1024, l (ix2 p k) * r (ix2 k q) := by
  refine (Ideal.matmul_constant_zero_apply dot_S512x1024_S1024x1024_S512x1024_1_0_0_1_n_n none l r (ix2 p q)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact outerDot_lhs0 _ _
    | ⟨1, _⟩ => exact (outerDot_lhs1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (outerDot_rhs0 _ _).trans hk
    | ⟨1, _⟩ => exact outerDot_rhs1 _ _)
  rw [el, er]

/-! ### The payloads -/

/-- The normalised matrix at `(f, k)`. -/
theorem normed_apply (A : FVec Ideal S1024x2048 .f32) (f : Fin 1024) (k : Fin 2048) :
    k0_pay1 (F := Ideal) A (ix2 f k) = Cert.Spec.scaled A f k := by
  unfold k0_pay1 Cert.Spec.scaled Cert.Spec.colSq
  dsimp only
  rw [shapeCast_self]
  show A (ix2 f k) * broadcastTo S1024x2048 _ broadcasts_S1x2048_S1024x2048 (ix2 f k) = _
  rw [broadcastTo_1b_ab_apply]
  show A (ix2 f k) * Ideal.rsqrt (shapeCast S1x2048 _ shapeCasts_S2048_S1x2048 (ix2 (0 : Fin 1) k)) = _
  rw [shapeCast_a_1a_apply]
  refine congrArg (fun s => A (ix2 f k) * Ideal.rsqrt s) ?_
  refine (Ideal.multiReduction_add_single (mulf A A) 0x00000000#32 reduces_S1024x2048_S2048 (.inl rfl) rfl (ix1 k)).trans ?_
  refine Finset.sum_congr rfl fun f' _ => ?_
  have e : reduces_S1024x2048_S2048.lift (ix1 k) f' = ix2 f' k :=
    funext fun a => Fin.ext (by match a with | ⟨0, _⟩ => rfl | ⟨1, _⟩ => rfl)
  show A (reduces_S1024x2048_S2048.lift (ix1 k) f') * A (reduces_S1024x2048_S2048.lift (ix1 k) f') = _
  rw [e]
  rfl

/-- The product matrix at `(f, g)`, of any matrix `N` in place of the normalised one. -/
theorem product_apply (N : FVec Ideal S1024x2048 .bf16) (B : FVec Ideal S2048x1024 .f32) (f : Fin 1024) (g : Fin 1024) :
    k0_pay2 (F := Ideal) N B (ix2 f g) = ∑ k : Fin 2048, N (ix2 f k) * B (ix2 k g) := by
  unfold k0_pay2
  rw [shapeCast_self]
  exact mixedDot_apply N (truncf .bf16 B bitsLt_bf16_f32) f g

/-- A tile of the second result at `(r, k)`. -/
theorem inner_apply (xb : FVec Ideal S512x1024 .f32) (N : FVec Ideal S1024x2048 .bf16) (r : Fin 512) (k : Fin 2048) :
    k0_pay4 (F := Ideal) xb N (ix2 r k) = ∑ f : Fin 1024, xb (ix2 r f) * N (ix2 f k) := by
  unfold k0_pay4 k0_pay3
  exact innerDot_apply (truncf .bf16 xb bitsLt_bf16_f32) N r k

/-- A tile of the first result at `(r, g)`. -/
theorem outer_apply (xb : FVec Ideal S512x1024 .f32) (W : FVec Ideal S1024x1024 .bf16) (r : Fin 512) (g : Fin 1024) :
    k0_pay5 (F := Ideal) xb W (ix2 r g) = ∑ f : Fin 1024, xb (ix2 r f) * W (ix2 f g) := by
  unfold k0_pay5 k0_pay3
  exact outerDot_apply (truncf .bf16 xb bitsLt_bf16_f32) W r g

end Cert.KernelIdeal.Payload
end
-- ==== Proof.Arrays.lean ====
/-
  From the tiles to the two result arrays.

  Point `t` of the grid works on rows `512·t … 512·t + 511` of `x` and writes the same rows of both results. With
  `N` the column-normalised matrix of `A`, row `b` of the second result is row `b` of `x` against the columns of `N`,
  and row `b` of the first result is row `b` of `x` against the columns of `N · Bm`: one function of the three argument
  arrays for each result, of which every point writes its own block of rows; the sixteen blocks cover the arrays.
-/
import proofs.«143639_g85555748536941_cont_sun_m_818_30_alg».proof.Proof.Points
import proofs.«143639_g85555748536941_cont_sun_m_818_30_alg».proof.Proof.Payload
import proofs.«143639_g85555748536941_cont_sun_m_818_30_alg».proof.Proof.Gen.KernelIdeal.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Points Cert.KernelIdeal.Payload

variable (m : (ℓ : Loc nD τ sig) → Buf (Elt Ideal) ℓ) (ρ : Dev nD → PrngReg)

/-- The second result as a function of the arguments: `x · N`. -/
def innerArr (c : Dev nD) : S8192x2048.Idx → EReal :=
  fun i => Cert.Spec.inner (arrX m c) (Cert.Spec.scaled (arrA m c)) (i 0) (i 1)

/-- The first result as a function of the arguments: `x · (N · Bm)`. -/
def outerArr (c : Dev nD) : S8192x1024.Idx → EReal :=
  fun i => Cert.Spec.fused (arrX m c) (Cert.Spec.scaled (arrA m c)) (arrB m c) (i 0) (i 1)

/-- A tile of the second result, row by row, over the normalised matrix of `A`. -/
theorem inner_tile (xb : FVec Ideal S512x1024 .f32) (A : FVec Ideal S1024x2048 .f32) (y : S512x2048.Idx) :
    k0_pay4 (F := Ideal) xb (k0_pay1 (F := Ideal) A) y = ∑ f : Fin 1024, xb (ix2 (y 0) f) * Cert.Spec.scaled A f (y 1) := by
  refine ((congrArg (k0_pay4 (F := Ideal) xb (k0_pay1 (F := Ideal) A)) (eq_ix2 y)).trans
    (inner_apply xb (k0_pay1 (F := Ideal) A) (y 0) (y 1))).trans ?_
  exact Finset.sum_congr rfl fun f _ => congrArg (xb (ix2 (y 0) f) * ·) (normed_apply A f (y 1))

/-- A tile of the first result, row by row, over the product of that matrix with `Bm`. -/
theorem outer_tile (xb : FVec Ideal S512x1024 .f32) (A : FVec Ideal S1024x2048 .f32) (B : FVec Ideal S2048x1024 .f32) (y : S512x1024.Idx) :
    k0_pay5 (F := Ideal) xb (k0_pay2 (F := Ideal) (k0_pay1 (F := Ideal) A) B) y
      = ∑ f : Fin 1024, xb (ix2 (y 0) f) * Cert.Spec.mixed (Cert.Spec.scaled A) B f (y 1) := by
  refine ((congrArg (k0_pay5 (F := Ideal) xb (k0_pay2 (F := Ideal) (k0_pay1 (F := Ideal) A) B)) (eq_ix2 y)).trans
    (outer_apply xb (k0_pay2 (F := Ideal) (k0_pay1 (F := Ideal) A) B) (y 0) (y 1))).trans ?_
  refine Finset.sum_congr rfl fun f _ => congrArg (xb (ix2 (y 0) f) * ·) ?_
  refine (product_apply (k0_pay1 (F := Ideal) A) B f (y 1)).trans ?_
  unfold Cert.Spec.mixed
  exact Finset.sum_congr rfl fun k _ => congrArg (· * B (ix2 k (y 1))) (normed_apply A f k)

/-- The printed index maps, decided over the grid: the tile of `x` and both result tiles sit at block row `t`, column 0. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ### The second result -/

/-- An index of the array is in point `t`'s block iff each coordinate is in the block's range on its axis. -/
theorem mem_blk4 (t : Fin cfg0.N) (i : S8192x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v0_1).slice (win0_4.rect t)).set ↔ _
  rw [View.set_slice_whole, Rect.mem_set_unit]
  exact Iff.rfl

/-- Row `b` of the array lies in the block of point `b / 512`: the blocks cover the array. -/
theorem cover4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 16 := N_0
  have hq : (i 0).val / 512 < cfg0.N := by omega
  obtain ⟨-, -, e30, e31, e40, e41⟩ := idx_facts ⟨(i 0).val / 512, hq⟩
  refine ⟨⟨(i 0).val / 512, hq⟩, flush0_4 _, ?_⟩
  rw [mem_blk4]
  intro a
  match a with
  | ⟨0, _⟩ =>
    show win0_4.index ⟨(i 0).val / 512, hq⟩ (0 : Fin 2) * 512 ≤ (i 0).val ∧ (i 0).val < win0_4.index ⟨(i 0).val / 512, hq⟩ (0 : Fin 2) * 512 + 512
    rw [e40]; dsimp only; omega
  | ⟨1, _⟩ =>
    show win0_4.index ⟨(i 0).val / 512, hq⟩ (1 : Fin 2) * 2048 ≤ (i 1).val ∧ (i 1).val < win0_4.index ⟨(i 0).val / 512, hq⟩ (1 : Fin 2) * 2048 + 2048
    rw [e41]; omega

/-- What point `t` writes back is block `t` of the whole-array function. -/
theorem flushed4_eq (c : Dev nD) (t : Fin cfg0.N) :
    (dats m 0 c).flushed 4 t = ((cfg0.win 4).blk t).view.read (Elt Ideal) (innerArr m c) := by
  rw [Cert.KernelIdeal.Value.flushed4, outsAt_eq]
  obtain ⟨e00, e01, e30, e31, e40, e41⟩ := idx_facts t
  funext y
  show k0_pay4 (F := Ideal) (tileX m c t) (k0_pay1 (F := Ideal) (arrA m c)) y = innerArr m c (((cfg0.win 4).blk t).view.emb y)
  refine (inner_tile (tileX m c t) (arrA m c) y).trans ?_
  unfold innerArr Cert.Spec.inner
  have hcol : (((cfg0.win 4).blk t).view.emb y) 1 = y 1 :=
    Fin.ext (by show win0_4.index t (1 : Fin 2) * 2048 + 1 * (y 1).val = (y 1).val; omega)
  rw [hcol]
  refine Finset.sum_congr rfl fun f _ => ?_
  refine congrArg (· * _) ?_
  show V m c main_arg0 (((cfg0.win 0).blk t).view.emb (ix2 (y 0) f)) = V m c main_arg0 (ix2 ((((cfg0.win 4).blk t).view.emb y) 0) f)
  refine congrArg (V m c main_arg0) (funext fun a => Fin.ext ?_)
  match a with
  | ⟨0, _⟩ => show win0_0.index t (0 : Fin 2) * 512 + 1 * (y 0).val = win0_4.index t (0 : Fin 2) * 512 + 1 * (y 0).val; omega
  | ⟨1, _⟩ => show win0_0.index t (1 : Fin 2) * 1024 + 1 * f.val = f.val; omega

/-- So the array ends holding that function. -/
theorem final4 (c : Dev nD) : (dats m 0 c).arrAt 4 cfg0.N = innerArr m c :=
  (dats m 0 c).arrAt_eq_of_cover 4 (innerArr m c) (fun t _ => flushed4_eq m c t) cover4

/-! ### The first result -/

/-- An index of the array is in point `t`'s block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0_0).slice (win0_3.rect t)).set ↔ _
  rw [View.set_slice_whole, Rect.mem_set_unit]
  exact Iff.rfl

/-- Row `b` of the array lies in the block of point `b / 512`: the blocks cover the array. -/
theorem cover3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  have hq : (i 0).val / 512 < cfg0.N := by omega
  obtain ⟨-, -, e30, e31, e40, e41⟩ := idx_facts ⟨(i 0).val / 512, hq⟩
  refine ⟨⟨(i 0).val / 512, hq⟩, flush0_3 _, ?_⟩
  rw [mem_blk3]
  intro a
  match a with
  | ⟨0, _⟩ =>
    show win0_3.index ⟨(i 0).val / 512, hq⟩ (0 : Fin 2) * 512 ≤ (i 0).val ∧ (i 0).val < win0_3.index ⟨(i 0).val / 512, hq⟩ (0 : Fin 2) * 512 + 512
    rw [e30]; dsimp only; omega
  | ⟨1, _⟩ =>
    show win0_3.index ⟨(i 0).val / 512, hq⟩ (1 : Fin 2) * 1024 ≤ (i 1).val ∧ (i 1).val < win0_3.index ⟨(i 0).val / 512, hq⟩ (1 : Fin 2) * 1024 + 1024
    rw [e31]; omega

/-- What point `t` writes back is block `t` of the whole-array function. -/
theorem flushed3_eq (c : Dev nD) (t : Fin cfg0.N) :
    (dats m 0 c).flushed 3 t = ((cfg0.win 3).blk t).view.read (Elt Ideal) (outerArr m c) := by
  rw [Cert.KernelIdeal.Value.flushed3, outsAt_eq]
  obtain ⟨e00, e01, e30, e31, e40, e41⟩ := idx_facts t
  funext y
  show k0_pay5 (F := Ideal) (tileX m c t) (k0_pay2 (F := Ideal) (k0_pay1 (F := Ideal) (arrA m c)) (arrB m c)) y = outerArr m c (((cfg0.win 3).blk t).view.emb y)
  refine (outer_tile (tileX m c t) (arrA m c) (arrB m c) y).trans ?_
  unfold outerArr Cert.Spec.fused
  have hcol : (((cfg0.win 3).blk t).view.emb y) 1 = y 1 :=
    Fin.ext (by show win0_3.index t (1 : Fin 2) * 1024 + 1 * (y 1).val = (y 1).val; omega)
  rw [hcol]
  refine Finset.sum_congr rfl fun f _ => ?_
  refine congrArg (· * _) ?_
  show V m c main_arg0 (((cfg0.win 0).blk t).view.emb (ix2 (y 0) f)) = V m c main_arg0 (ix2 ((((cfg0.win 3).blk t).view.emb y) 0) f)
  refine congrArg (V m c main_arg0) (funext fun a => Fin.ext ?_)
  match a with
  | ⟨0, _⟩ => show win0_0.index t (0 : Fin 2) * 512 + 1 * (y 0).val = win0_3.index t (0 : Fin 2) * 512 + 1 * (y 0).val; omega
  | ⟨1, _⟩ => show win0_0.index t (1 : Fin 2) * 1024 + 1 * f.val = f.val; omega

/-- So the array ends holding that function. -/
theorem final3 (c : Dev nD) : (dats m 0 c).arrAt 3 cfg0.N = outerArr m c :=
  (dats m 0 c).arrAt_eq_of_cover 3 (outerArr m c) (fun t _ => flushed3_eq m c t) cover3

/-! ### The run, read -/

/-- Every weakly fair execution ends with the two results at those functions of the arguments, the arguments unchanged. -/
theorem run : θ_run defs (onTc (τ := τ) (main (F := Ideal))) ⟨m, fun _ => 0, ρ⟩ fun r => ∀ c : Dev nD,
      r.2.mem ((c : Thread nD τ).loc main_v0_0) = outerArr m c
      ∧ r.2.mem ((c : Thread nD τ).loc main_v0_1) = innerArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Cert.KernelIdeal.Value.run_blocks m ρ)

end Cert.KernelIdeal.Arrays
end
-- ==== Proof.RefValue.lean ====
/-
  The reference's two results as functions of its arguments, index by index.

  The reference squares `A`, sums each column from a zero initial value, takes the square root, repeats that row
  down the rows and divides `A` by it: at `(f, k)` the quotient of `A(f, k)` by the square root of column `k`'s sum
  of squares. Its second result is `x` against that matrix, and its first result is the second against `Bm`:
  the two matrix products one after the other.
-/
import proofs.«143639_g85555748536941_cont_sun_m_818_30_alg».proof.Proof.Gen.ReferenceIdeal.Read
import proofs.«143639_g85555748536941_cont_sun_m_818_30_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The column sums: a zero initial value plus the squares down the column. -/
theorem sumsq_apply (A : FVec Ideal S1024x2048 .f32) (k : Fin 2048) :
    val_main_call0_v1 (F := Ideal) A (ix1 k) = Cert.Spec.colSq A k := by
  rw [val_main_call0_v1_apply, val_main_call0_cst_apply]
  show Ideal.ofBits .f32 0x00000000#32 + _ = _
  rw [Ideal.ofBits_zero_f32, zero_add]
  unfold Cert.Spec.colSq
  refine Finset.sum_congr rfl fun f _ => ?_
  have e : idx_main_call0_v1 (ix1 k) f = ix2 f k :=
    funext fun a => Fin.ext (by match a with | ⟨0, _⟩ => rfl | ⟨1, _⟩ => rfl)
  rw [val_main_call0_v0_apply, e]
  rfl

/-- The normalised matrix at `(f, k)`: the entry over the square root of its column's sum of squares. -/
theorem normalised_apply (A : FVec Ideal S1024x2048 .f32) (f : Fin 1024) (k : Fin 2048) :
    val_main_v2 (F := Ideal) A (ix2 f k) = Cert.Spec.divided A f k := by
  have e : idx_main_call0_v2 (idx_main_v1 (ix2 f k)) = ix1 k :=
    funext fun a => Fin.ext (by match a with | ⟨0, _⟩ => rfl)
  rw [val_main_v2_apply, val_main_v1_apply, val_main_v0_apply, val_main_call0_v2_apply, e, sumsq_apply]
  rfl

/-- The second result at `(b, k)`: row `b` of `x` against column `k` of the normalised matrix. -/
theorem inner_at (x : FVec Ideal S8192x1024 .f32) (A : FVec Ideal S1024x2048 .f32) (b : Fin 8192) (k : Fin 2048) :
    val_main_v3 (F := Ideal) x A (ix2 b k) = Cert.Spec.inner x (Cert.Spec.divided A) b k := by
  rw [val_main_v3_apply]
  unfold Cert.Spec.inner
  refine Finset.sum_congr rfl fun f _ => ?_
  have el : lidx_main_v3 (ix2 b k) f = ix2 b f :=
    funext fun a => Fin.ext (by match a with | ⟨0, _⟩ => rfl | ⟨1, _⟩ => rfl)
  have er : ridx_main_v3 (ix2 b k) f = ix2 f k :=
    funext fun a => Fin.ext (by match a with | ⟨0, _⟩ => rfl | ⟨1, _⟩ => rfl)
  rw [el, er, normalised_apply]

/-- The first result at `(b, g)`: row `b` of the second result against column `g` of `Bm`. -/
theorem outer_at (x : FVec Ideal S8192x1024 .f32) (A : FVec Ideal S1024x2048 .f32) (B : FVec Ideal S2048x1024 .f32)
    (b : Fin 8192) (g : Fin 1024) :
    val_main_v4 (F := Ideal) x A B (ix2 b g) = Cert.Spec.chained x (Cert.Spec.divided A) B b g := by
  rw [val_main_v4_apply]
  unfold Cert.Spec.chained
  refine Finset.sum_congr rfl fun k _ => ?_
  have el : lidx_main_v4 (ix2 b g) k = ix2 b k :=
    funext fun a => Fin.ext (by match a with | ⟨0, _⟩ => rfl | ⟨1, _⟩ => rfl)
  have er : ridx_main_v4 (ix2 b g) k = ix2 k g :=
    funext fun a => Fin.ext (by match a with | ⟨0, _⟩ => rfl | ⟨1, _⟩ => rfl)
  rw [el, er, inner_at]

/-- The same at any index of the second result, -/
theorem inner_eq (x : FVec Ideal S8192x1024 .f32) (A : FVec Ideal S1024x2048 .f32) (i : S8192x2048.Idx) :
    val_main_v3 (F := Ideal) x A i = Cert.Spec.inner x (Cert.Spec.divided A) (i 0) (i 1) :=
  (congrArg (val_main_v3 (F := Ideal) x A) (eq_ix2 i)).trans (inner_at x A (i 0) (i 1))

/-- and of the first. -/
theorem outer_eq (x : FVec Ideal S8192x1024 .f32) (A : FVec Ideal S1024x2048 .f32) (B : FVec Ideal S2048x1024 .f32)
    (i : S8192x1024.Idx) :
    val_main_v4 (F := Ideal) x A B i = Cert.Spec.chained x (Cert.Spec.divided A) B (i 0) (i 1) :=
  (congrArg (val_main_v4 (F := Ideal) x A B) (eq_ix2 i)).trans (outer_at x A B (i 0) (i 1))

end Cert.ReferenceIdeal.RefValue
end
-- ==== Proof.Domain.lean ====
/-
  What the precondition says, read off its printed form.

  The precondition is a conjunction of four tests, each an "all" over an array of truth values: every entry of `x`,
  of `A` and of `Bm` has absolute value below `+∞`, and every column of `A` has a sum of squares above `0`. An
  extended real whose absolute value is below `+∞` is a real number, and the column sum the test computes (a zero
  initial value plus the sum down the column) is the sum of squares the two programs normalise by.
-/
import proofs.«143639_g85555748536941_cont_sun_m_818_30_alg».proof.Pre_finite_inputs
import proofs.«143639_g85555748536941_cont_sun_m_818_30_alg».proof.Proof.Spec
import Idealize.ShloMosaic.Lib.ReduceAll
import Idealize.ShloMosaic.Lib.ValueIdx
import Idealize.ShloMosaic.PureOps.Ideal.Laws

noncomputable section

open scoped BigOperators
open Idealize.ShloMosaic Idealize.ShloMosaic.ValueIdx

namespace Cert.Domain

open Cert.Pre_finite_inputs Cert.Pre_finite_inputs.Facts

variable [Cert.Pre_finite_inputs.Facts]

instance : Subsingleton S_.Idx := ⟨fun a b => funext fun d => d.elim0⟩

/-- A truth value's word is the set bit exactly when it is true. -/
theorem ofBool_one {b : Bool} : BitVec.ofBool b = 1#1 ↔ b = true := by cases b <;> decide

/-- The pattern the tests compare against denotes `+∞`. -/
theorem inf_pattern : Ideal.ofBits .f32 0x7F800000#32 = (⊤ : EReal) := by simp [Ideal.ofBits, Ideal.ieee]

/-- An extended real whose absolute value is below `+∞` is a real. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- One "all finite" test gives a real at every index. -/
theorem real_of_test {s : Shape} {axes : List (Fin s.rank)} (v : FVec Ideal s .f32)
    (bc : S_.BroadcastsInDim s (![] : Fin 0 → Fin s.rank)) (hr : s.ReducesTo axes S_)
    (h : Host.reduce IntOp.andi (cmpf .olt (Host.absf v) (broadcastInDim s ![] bc (constant (F := Ideal) S_ .f32 0x7F800000#32)))
      (constantI S_ 1 1#1) hr h_S_ ix0 = 1#1) (i : s.Idx) : ∃ r : ℝ, v i = (r : EReal) := by
  have e := Host.reduce_andi_all _ _ hr h_S_ ix0 h i
  refine real_of_abs_lt_top (v i) ?_
  rw [← inf_pattern]
  exact e

/-- The column sum the test computes is the column's sum of squares. -/
theorem colsum_eq (A : FVec Ideal S1024x2048 .f32) (k : Fin 2048) :
    Host.reduceAdd (mulf A A) (constant (F := Ideal) S_ .f32 0x00000000#32) reducesTo_S1024x2048_S2048_d0 h_S_ (ix1 k)
      = Cert.Spec.colSq A k := by
  have hr : S1024x2048.Reduces [0] S2048 := by decide
  simp only [Host.reduceAdd, Ideal.hostReduceAdd_def]
  rw [Ideal.hostReduceAdd_single reducesTo_S1024x2048_S2048_d0 hr]
  show Ideal.ofBits .f32 0x00000000#32 + _ = _
  rw [Ideal.ofBits_zero_f32, zero_add]
  unfold Cert.Spec.colSq
  refine Finset.sum_congr rfl fun f _ => ?_
  have e : hr.lift (ix1 k) f = ix2 f k := funext fun a => Fin.ext (by match a with | ⟨0, _⟩ => rfl | ⟨1, _⟩ => rfl)
  show A (hr.lift (ix1 k) f) * A (hr.lift (ix1 k) f) = _
  rw [e]
  rfl

/-- THE DOMAIN: under the precondition the three arrays hold reals and every column of `A` has a positive sum of squares. -/
theorem of_pre (x : FVec Ideal S8192x1024 .f32) (A : FVec Ideal S1024x2048 .f32) (B : FVec Ideal S2048x1024 .f32)
    (h : fn (F := Ideal) x A B = fun _ => 1#1) :
    (∀ i, ∃ r : ℝ, x i = (r : EReal)) ∧ (∀ j, ∃ r : ℝ, A j = (r : EReal)) ∧ (∀ j, ∃ r : ℝ, B j = (r : EReal))
      ∧ ∀ k, 0 < Cert.Spec.colSq A k := by
  have h0 := congrFun h ix0
  dsimp only [fn, fn_part1, andi] at h0
  obtain ⟨h123, h4⟩ := IntOp.andi_eq_one.mp h0
  obtain ⟨h12, h3⟩ := IntOp.andi_eq_one.mp h123
  obtain ⟨h1, h2⟩ := IntOp.andi_eq_one.mp h12
  refine ⟨real_of_test x _ _ h1, real_of_test A _ _ h2, real_of_test B _ _ h3, fun k => ?_⟩
  have e := Host.reduce_andi_all _ _ reducesTo_S2048_S_d0 h_S_ ix0 h4 (ix1 k)
  rw [← colsum_eq A k]
  have e' : Ideal.cmp .ogt (Host.reduceAdd (mulf A A) (constant (F := Ideal) S_ .f32 0x00000000#32) reducesTo_S1024x2048_S2048_d0 h_S_ (ix1 k))
      (Ideal.ofBits .f32 0x00000000#32) = 1#1 := e
  rw [Ideal.ofBits_zero_f32] at e'
  exact of_decide_eq_true (ofBool_one.mp e')

end Cert.Domain
end
-- ==== Proof.lean ====
/-
  A fused kernel for `out = (x · N) · Bm`, `inner = x · N`, with `N` the matrix `A` whose every column is divided by its
  Euclidean norm, against the reference that computes exactly that, operation by operation.

  The kernel multiplies each column of `A` by the reciprocal square root of its sum of squares, forms `W = N · Bm`
  once, at the first of its sixteen grid points, keeps `N` and `W` in scratch, and at every point writes the tile
  `x_t · N` of `inner` and the tile `x_t · W` of `out` for its 512 rows of `x`. Over the extended reals the two programs
  agree wherever the reference's quotient has a meaning: the entries of the three arrays finite, and every column of
  `A` of positive sum of squares (on a zero column the reference divides zero by zero). There

    * `a · s^(-1/2) = a / √s` for a positive real `s` (Spec.lean, `divided_eq_scaled`), so both programs form the same
      `N`, and `inner` agrees term by term;
    * `Σ_k (Σ_f x·N)·Bm = Σ_f x·(Σ_k N·Bm)` for real entries (Spec.lean, `chained_eq_fused`), so `out` agrees.

  The kernel's side: what one grid point leaves in each buffer (Pieces.lean), what the buffers hold after every
  point, by induction on the point (Points.lean), the body's arithmetic read at an index (Payload.lean), and the two
  result arrays as one function each of the argument arrays (Arrays.lean). The reference's side: its operations
  chained at an index (RefValue.lean). The precondition read off its printed form (Domain.lean). The kernel's frames
  and the reference's run are the generated ones.
-/
import proofs.«143639_g85555748536941_cont_sun_m_818_30_alg».proof.Defs
import proofs.«143639_g85555748536941_cont_sun_m_818_30_alg».proof.Proof.Gen.Kernel
import proofs.«143639_g85555748536941_cont_sun_m_818_30_alg».proof.Proof.Gen.Kernel.Skeleton
import proofs.«143639_g85555748536941_cont_sun_m_818_30_alg».proof.Proof.Gen.Kernel.Launch
import proofs.«143639_g85555748536941_cont_sun_m_818_30_alg».proof.Proof.Gen.Kernel.Points
import proofs.«143639_g85555748536941_cont_sun_m_818_30_alg».proof.Proof.Gen.Kernel.Frame
import proofs.«143639_g85555748536941_cont_sun_m_818_30_alg».proof.Proof.Gen.KernelIdeal
import proofs.«143639_g85555748536941_cont_sun_m_818_30_alg».proof.Proof.Gen.KernelIdeal.Skeleton
import proofs.«143639_g85555748536941_cont_sun_m_818_30_alg».proof.Proof.Gen.KernelIdeal.Launch
import proofs.«143639_g85555748536941_cont_sun_m_818_30_alg».proof.Proof.Gen.KernelIdeal.Points
import proofs.«143639_g85555748536941_cont_sun_m_818_30_alg».proof.Proof.Gen.KernelIdeal.Frame
import proofs.«143639_g85555748536941_cont_sun_m_818_30_alg».proof.Proof.Gen.ReferenceIdeal
import proofs.«143639_g85555748536941_cont_sun_m_818_30_alg».proof.Proof.Gen.Pre_finite_inputs
import proofs.«143639_g85555748536941_cont_sun_m_818_30_alg».proof.Proof.Gen.KernelIdeal.Value
import proofs.«143639_g85555748536941_cont_sun_m_818_30_alg».proof.Proof.Gen.ReferenceIdeal.Run
import proofs.«143639_g85555748536941_cont_sun_m_818_30_alg».proof.Proof.Gen.ReferenceIdeal.Read
import proofs.«143639_g85555748536941_cont_sun_m_818_30_alg».proof.Proof.Arrays
import proofs.«143639_g85555748536941_cont_sun_m_818_30_alg».proof.Proof.RefValue
import proofs.«143639_g85555748536941_cont_sun_m_818_30_alg».proof.Proof.Domain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on finite arguments whose matrix `A` has no zero column, both programs end with
    `out = x · (N · Bm)` and `inner = x · N`. -/
theorem algebraic : Cert.algebraic_KernelIdeal_ReferenceIdeal := by
  intro m ρ m' ρ' hpre hagree
  refine ⟨fun c => Cert.KernelIdeal.Arrays.outerArr m c, fun c => Cert.KernelIdeal.Arrays.innerArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hx, hA, hB, hpos⟩ := Cert.Domain.of_pre _ _ _ (hpre c)
    rw [(hagree c).1, (hagree c).2.1, (hagree c).2.2, Cert.ReferenceIdeal.Read.val_main_v4_eq]
    funext i
    refine (Cert.ReferenceIdeal.RefValue.outer_eq _ _ _ i).trans ?_
    rw [Cert.Spec.divided_eq_scaled _ hA hpos]
    exact Cert.Spec.chained_eq_fused _ _ _ hx (Cert.Spec.scaled_real _ hA hpos) hB (i 0) (i 1)
  · obtain ⟨hx, hA, hB, hpos⟩ := Cert.Domain.of_pre _ _ _ (hpre c)
    rw [(hagree c).1, (hagree c).2.1, Cert.ReferenceIdeal.Read.val_main_v3_eq]
    funext i
    refine (Cert.ReferenceIdeal.RefValue.inner_eq _ _ i).trans ?_
    rw [Cert.Spec.divided_eq_scaled _ hA hpos]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
